-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S256x128 : Shape := ⟨2, ![256, 128]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S128x256 .f32) (main_arg3 : FVec F S128 .f32) (main_arg4 : FVec F S256x128 .f32) (main_arg5 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S256x128 : Shape := ⟨2, ![256, 128]⟩
abbrev S256 : Shape := ⟨1, ![256]⟩
abbrev S100000x128 : Shape := ⟨2, ![100000, 128]⟩
abbrev S5000x256 : Shape := ⟨2, ![5000, 256]⟩
abbrev S5000x128 : Shape := ⟨2, ![5000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x256 : Shape := ⟨2, ![1, 256]⟩

abbrev nBuf : Space → Nat
  | .hbm => 62
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S100000x128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x1, .f32⟩
  | .hbm, ⟨51, _⟩ => ⟨S1700000x128, .f32⟩
  | .hbm, ⟨52, _⟩ => ⟨S1700000x128, .f32⟩
  | .hbm, ⟨53, _⟩ => ⟨S_, .f32⟩
  | .hbm, ⟨54, _⟩ => ⟨S100000x128, .f32⟩
  | .hbm, ⟨55, _⟩ => ⟨S1700000x1, .i32⟩
  | .hbm, ⟨56, _⟩ => ⟨S100000x128, .f32⟩
  | .hbm, ⟨57, _⟩ => ⟨S1x128, .f32⟩
  | .hbm, ⟨58, _⟩ => ⟨S128x256, .f32⟩
  | .hbm, ⟨59, _⟩ => ⟨S1x256, .f32⟩
  | .hbm, ⟨60, _⟩ => ⟨S100000x128, .f32⟩
  | .hbm, ⟨61, _⟩ => ⟨S100000x256, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x256, .f32⟩
  | .local _ .vmem, ⟨9, _⟩ => ⟨S1x256, .f32⟩
  | .local _ .vmem, ⟨10, _⟩ => ⟨S5000x128, .f32⟩
  | .local _ .vmem, ⟨11, _⟩ => ⟨S5000x128, .f32⟩
  | .local _ .vmem, ⟨12, _⟩ => ⟨S5000x256, .f32⟩
  | .local _ .vmem, ⟨13, _⟩ => ⟨S5000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45_0 : Ref sig .tc := ⟨.hbm, 60, rfl⟩
abbrev main_v45_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S128x256_S256x128_1_0 : S128x256.Transposes [1, 0] S256x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  transposes_S256x128_S128x256_1_0 : S256x128.Transposes [1, 0] S128x256
  shapeCasts_S256_S1x256 : S256.ShapeCasts S1x256
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  dot_S5000x256_S256x128_S5000x128_1_0_0_1_n_n_wf : DotDims.WF S5000x256 S256x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S100000x256.size a
  hwx1_5 : ∀ i : grid1.Coords, EltTy.bits .f32 = 32 ∨ (Rect.block (s := S100000x256) S5000x256.size (cc1_transform_5 i) (hinb1_5 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v45_1) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S128x256 : Shape := ⟨2, ![128, 256]⟩
abbrev S128 : Shape := ⟨1, ![128]⟩
abbrev S256x128 : Shape := ⟨2, ![256, 128]⟩
abbrev S256 : Shape := ⟨1, ![256]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x256 : Shape := ⟨2, ![1, 256]⟩

abbrev nBuf : Space → Nat
  | .hbm => 68
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S128x256, .f32⟩
  | .hbm, ⟨3, _⟩ => ⟨S128, .f32⟩
  | .hbm, ⟨4, _⟩ => ⟨S256x128, .f32⟩
  | .hbm, ⟨5, _⟩ => ⟨S256, .f32⟩
  | .hbm, ⟨6, _⟩ => ⟨S256x128, .f32⟩
  | .hbm, ⟨7, _⟩ => ⟨S100000x128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1700000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S1700000x1, .f32⟩
  | .hbm, ⟨51, _⟩ => ⟨S1700000x128, .f32⟩
  | .hbm, ⟨52, _⟩ => ⟨S1700000x128, .f32⟩
  | .hbm, ⟨53, _⟩ => ⟨S_, .f32⟩
  | .hbm, ⟨54, _⟩ => ⟨S100000x128, .f32⟩
  | .hbm, ⟨55, _⟩ => ⟨S1700000x1, .i32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S128x256, .f32⟩
  | .hbm, ⟨64, _⟩ => ⟨S100000x256, .f32⟩
  | .hbm, ⟨65, _⟩ => ⟨S1x256, .f32⟩
  | .hbm, ⟨66, _⟩ => ⟨S100000x256, .f32⟩
  | .hbm, ⟨67, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_cst : Ref sig .tc := ⟨.hbm, 60, rfl⟩
abbrev main_call0_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]

class Facts₀ : Prop where
  transposes_S128x256_S256x128_1_0 : S128x256.Transposes [1, 0] S256x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x256_S100000x256_1_0_0_1_n_n_wf : DotDims.WF S100000x128 S128x256 S100000x256 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.Spec.lean ====
/-
  What both programs compute, as three functions of whole arrays over the extended reals, index by index.

  * `encode x w`   : every node's features times the encoder weights, entry (n, h) = Σ_k x[n, k] · w[k, h].
  * `activate a b` : a row bias added and the result clamped below at zero, entry (n, h) = max (a[n, h] + b[0, h]) 0.
  * `decode z w b` : the hidden rows times the decoder weights plus a row bias,
                     entry (n, f) = (Σ_k z[n, k] · w[k, f]) + b[0, f].

  Between `encode` and `activate` both programs apply one and the same chain of index arithmetic, gathers and
  scatter-adds (the normalised neighbourhood sum); it is carried as a function and never opened.
-/
import Idealize.ShloMosaic.PureOps.Ideal
import Idealize.ShloMosaic.Lib.ValueIdx

noncomputable section

open Idealize.ShloMosaic

namespace Cert.Spec

/-- Node features, 100000 nodes of 256. -/
abbrev Feat : Shape := ⟨2, ![100000, 256]⟩
/-- Hidden rows, 100000 nodes of 128. -/
abbrev Hid : Shape := ⟨2, ![100000, 128]⟩
/-- Encoder weights, already transposed: 256 by 128. -/
abbrev EncW : Shape := ⟨2, ![256, 128]⟩
/-- Decoder weights, already transposed: 128 by 256. -/
abbrev DecW : Shape := ⟨2, ![128, 256]⟩
/-- A bias as one row of 128. -/
abbrev Row128 : Shape := ⟨2, ![1, 128]⟩
/-- A bias as one row of 256. -/
abbrev Row256 : Shape := ⟨2, ![1, 256]⟩

/-- A bias as the programs take it, a vector of 128. -/
abbrev Vec128 : Shape := ⟨1, ![128]⟩
/-- A bias as the programs take it, a vector of 256. -/
abbrev Vec256 : Shape := ⟨1, ![256]⟩

/-- A vector of 128 laid out as one row: entry (0, j) is entry j. (One program reshapes the bias to a row, the other
    broadcasts it into one; either way this is what the row holds.) -/
def asRow128 {α : Type} (b : Vec128.Idx → α) : Row128.Idx → α :=
  fun i => b (fun a => match a with | ⟨0, _⟩ => ⟨(i 1).val, (i 1).isLt⟩)
/-- A vector of 256 laid out as one row. -/
def asRow256 {α : Type} (b : Vec256.Idx → α) : Row256.Idx → α :=
  fun i => b (fun a => match a with | ⟨0, _⟩ => ⟨(i 1).val, (i 1).isLt⟩)

/-- Feature `k` of the node of hidden entry `i`. -/
abbrev featAt (i : Hid.Idx) (k : Fin 256) : Feat.Idx := fun a => match a with
  | ⟨0, _⟩ => ⟨(i 0).val, (i 0).isLt⟩
  | ⟨1, _⟩ => ⟨k.val, k.isLt⟩
/-- Row `k` of the encoder weights, at the column of hidden entry `i`. -/
abbrev encWAt (i : Hid.Idx) (k : Fin 256) : EncW.Idx := fun a => match a with
  | ⟨0, _⟩ => ⟨k.val, k.isLt⟩
  | ⟨1, _⟩ => ⟨(i 1).val, (i 1).isLt⟩
/-- The bias entry under column `i 1`. -/
abbrev bias128At (i : Hid.Idx) : Row128.Idx := fun a => match a with
  | ⟨0, _⟩ => (0 : Fin 1)
  | ⟨1, _⟩ => ⟨(i 1).val, (i 1).isLt⟩
/-- Hidden entry `k` of the node of output entry `i`. -/
abbrev hidAt (i : Feat.Idx) (k : Fin 128) : Hid.Idx := fun a => match a with
  | ⟨0, _⟩ => ⟨(i 0).val, (i 0).isLt⟩
  | ⟨1, _⟩ => ⟨k.val, k.isLt⟩
/-- Row `k` of the decoder weights, at the column of output entry `i`. -/
abbrev decWAt (i : Feat.Idx) (k : Fin 128) : DecW.Idx := fun a => match a with
  | ⟨0, _⟩ => ⟨k.val, k.isLt⟩
  | ⟨1, _⟩ => ⟨(i 1).val, (i 1).isLt⟩
/-- The bias entry under column `i 1`. -/
abbrev bias256At (i : Feat.Idx) : Row256.Idx := fun a => match a with
  | ⟨0, _⟩ => (0 : Fin 1)
  | ⟨1, _⟩ => ⟨(i 1).val, (i 1).isLt⟩

/-- Features times encoder weights. -/
def encode (x : Feat.Idx → EReal) (w : EncW.Idx → EReal) : Hid.Idx → EReal :=
  fun i => ∑ k : Fin 256, x (featAt i k) * w (encWAt i k)

/-- Bias added, clamped below at the float zero. -/
def activate (a : Hid.Idx → EReal) (b : Row128.Idx → EReal) : Hid.Idx → EReal :=
  fun i => max (a i + b (bias128At i)) (Ideal.ofBits .f32 0x00000000#32)

/-- Hidden rows times decoder weights, bias added. -/
def decode (z : Hid.Idx → EReal) (w : DecW.Idx → EReal) (b : Row256.Idx → EReal) : Feat.Idx → EReal :=
  fun i => (∑ k : Fin 128, z (hidAt i k) * w (decWAt i k)) + b (bias256At i)

end Cert.Spec

end
-- ==== Proof.EncValue.lean ====
/-
  The first kernel region (features times encoder weights, twenty blocks of 5000 nodes).
  One block's result is the matrix product of the block's rows with the whole weight array, entry by entry a sum over
  the 256 features (the change of float format on the way in is the identity over the extended reals, and the
  accumulator starts at zero). Block `t` holds rows 5000·t … 5000·t + 4999, the blocks cover every row, so the array
  the region leaves is `Spec.encode` of the two arrays it read.
-/
import proofs.«176377_j12893491822678_1_alg».proof.Proof.Gen.KernelIdeal.Frame
import proofs.«176377_j12893491822678_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Enc

open Cert.KernelIdeal Cert.KernelIdeal.Gen Cert.Spec

theorem lhs_enc_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_enc_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_enc_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_enc_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Feature `k` of row `j 0` of a block of rows. -/
abbrev blkRow (j : S5000x128.Idx) (k : Fin 256) : S5000x256.Idx := fun a => match a with
  | ⟨0, _⟩ => ⟨(j 0).val, (j 0).isLt⟩
  | ⟨1, _⟩ => ⟨k.val, k.isLt⟩
/-- Row `k` of the weights, at column `j 1`. -/
abbrev wCol (j : S5000x128.Idx) (k : Fin 256) : S256x128.Idx := fun a => match a with
  | ⟨0, _⟩ => ⟨k.val, k.isLt⟩
  | ⟨1, _⟩ => ⟨(j 1).val, (j 1).isLt⟩

theorem encPay_apply (x0 : Vec Ideal S5000x256 .f32) (x1 : Vec Ideal S256x128 .f32) (j : S5000x128.Idx) :
    k0_pay1 (F := Ideal) x0 x1 j = ∑ k : Fin 256, x0 (blkRow j k) * x1 (wCol j k) := by
  unfold k0_pay1
  simp only [shapeCast_self, matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = blkRow j k := funext fun a => Fin.ext (by
    match a with
    | ⟨0, _⟩ => exact lhs_enc_0 _ _
    | ⟨1, _⟩ => exact (lhs_enc_1 _ _).trans hk)
  have er : dot_S5000x256_S256x128_S5000x128_1_0_0_1_n_n.rhsIdx j ((ValueIdx.contrEquiv1 dot_S5000x256_S256x128_S5000x128_1_0_0_1_n_n 256 rfl rfl).symm k) = wCol j k := funext fun a => Fin.ext (by
    match a with
    | ⟨0, _⟩ => exact (rhs_enc_0 _ _).trans hk
    | ⟨1, _⟩ => exact rhs_enc_1 _ _)
  rw [el, er]
  rfl

variable (V : (c : Dev nD) → (b : Ref sig .tc) → Buf (Elt Ideal) ((c : Thread nD τ).loc b))

theorem hz : (![0, 0] : Fin 2 → Nat) = fun _ => 0 := funext fun a => by fin_cases a <;> rfl

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem enc_flushed (c : Dev nD) (t : Fin cfg0.N) :
    (dat0 V c).flushed 2 t = ((cfg0.win 2).blk t).view.read (Elt Ideal) (encode (V c main_arg0) (V c main_v0)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  funext j
  obtain ⟨f0, f1, f2, f3, f4, f5⟩ := idx_facts0 t
  show k0_pay1 (F := Ideal) (iblk0 V c 0 t) (iblk0 V c 1 t) j
    = encode (V c main_arg0) (V c main_v0) (((cfg0.win 2).blk t).view.emb j)
  refine (encPay_apply (iblk0 V c 0 t) (iblk0 V c 1 t) j).trans ?_
  unfold encode
  refine Finset.sum_congr rfl fun k _ => ?_
  have e0 : iblk0 V c 0 t (blkRow j k) = V c main_arg0 (featAt (((cfg0.win 2).blk t).view.emb j) k) := by
    show V c main_arg0 (((cfg0.win 0).blk t).view.emb (blkRow j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; rw [f0, f4]
    | ⟨1, _⟩ => show win0_0.index t (1 : Fin 2) * 256 + 1 * k.val = k.val; rw [f1]; omega
  have e1 : iblk0 V c 1 t (wCol j k) = V c main_v0 (encWAt (((cfg0.win 2).blk t).view.emb j) k) := by
    show V c main_v0 (((cfg0.win 1).blk t).view.emb (wCol j k)) = _
    refine congrArg (V c main_v0) (funext fun a => Fin.ext ?_)
    match a with
    | ⟨0, _⟩ => show win0_1.index t (0 : Fin 2) * 256 + 1 * k.val = k.val; rw [f2]; omega
    | ⟨1, _⟩ => show win0_1.index t (1 : Fin 2) * 128 + 1 * (j 1).val = win0_2.index t (1 : Fin 2) * 128 + 1 * (j 1).val; rw [f3, f5]
  rw [e0, e1]

theorem enc_mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v1).slice (win0_2.rect t)).set ↔ _
  rw [View.set_slice_whole, Rect.mem_set_unit]
  exact Iff.rfl

theorem enc_final (c : Dev nD) : (dat0 V c).arrAt 2 cfg0.N = encode (V c main_arg0) (V c main_v0) :=
  (dat0 V c).arrAt_eq_of_cover 2 (encode (V c main_arg0) (V c main_v0)) (fun t _ => enc_flushed V c t) fun i => by
    have hi0 : (i 0).val < 100000 := (i 0).isLt
    have hi1 : (i 1).val < 128 := (i 1).isLt
    have hN : cfg0.N = 20 := N_0
    have ht : (i 0).val / 5000 < cfg0.N := by rw [hN]; omega
    obtain ⟨f0, f1, f2, f3, f4, f5⟩ := idx_facts0 ⟨(i 0).val / 5000, ht⟩
    refine ⟨⟨(i 0).val / 5000, ht⟩, flush0_2 _, ?_⟩
    rw [enc_mem_blk]
    intro a
    match a with
    | ⟨0, _⟩ =>
      show win0_2.index ⟨(i 0).val / 5000, ht⟩ (0 : Fin 2) * 5000 ≤ (i 0).val ∧ (i 0).val < win0_2.index ⟨(i 0).val / 5000, ht⟩ (0 : Fin 2) * 5000 + 5000
      rw [f4]; show (i 0).val / 5000 * 5000 ≤ (i 0).val ∧ (i 0).val < (i 0).val / 5000 * 5000 + 5000; omega
    | ⟨1, _⟩ =>
      show win0_2.index ⟨(i 0).val / 5000, ht⟩ (1 : Fin 2) * 128 ≤ (i 1).val ∧ (i 1).val < win0_2.index ⟨(i 0).val / 5000, ht⟩ (1 : Fin 2) * 128 + 128
      rw [f5]; omega

end Cert.KernelIdeal.Enc

end
-- ==== Proof.DecValue.lean ====
/-
  The second kernel region (bias and clamp, then hidden rows times decoder weights plus bias; twenty blocks of 5000 nodes).
  Its first output is, entry by entry, the aggregated row plus the bias row clamped below at zero; its second output
  is the matrix product of that block with the whole decoder weight array, a sum over the 128 hidden entries, plus the
  second bias row. Block `t` of either output holds rows 5000·t … 5000·t + 4999 and the blocks cover every row, so the
  arrays the region leaves are `Spec.activate` and `Spec.decode` of `Spec.activate` of the arrays it read.
-/
import proofs.«176377_j12893491822678_1_alg».proof.Proof.Gen.KernelIdeal.Frame
import proofs.«176377_j12893491822678_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Dec

open Cert.KernelIdeal Cert.KernelIdeal.Gen Cert.Spec

theorem lhs_dec_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_dec_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_dec_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_dec_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Hidden entry `k` of row `j 0` of a block of rows. -/
abbrev blkHid (j : S5000x256.Idx) (k : Fin 128) : S5000x128.Idx := fun a => match a with
  | ⟨0, _⟩ => ⟨(j 0).val, (j 0).isLt⟩
  | ⟨1, _⟩ => ⟨k.val, k.isLt⟩
/-- Row `k` of the decoder weights, at column `j 1`. -/
abbrev wdCol (j : S5000x256.Idx) (k : Fin 128) : S128x256.Idx := fun a => match a with
  | ⟨0, _⟩ => ⟨k.val, k.isLt⟩
  | ⟨1, _⟩ => ⟨(j 1).val, (j 1).isLt⟩
/-- The bias entry under column `j 1` of a block of hidden rows. -/
abbrev blkBias128 (j : S5000x128.Idx) : S1x128.Idx := fun a => match a with
  | ⟨0, _⟩ => (0 : Fin 1)
  | ⟨1, _⟩ => ⟨(j 1).val, (j 1).isLt⟩
/-- The bias entry under column `j 1` of a block of output rows. -/
abbrev blkBias256 (j : S5000x256.Idx) : S1x256.Idx := fun a => match a with
  | ⟨0, _⟩ => (0 : Fin 1)
  | ⟨1, _⟩ => ⟨(j 1).val, (j 1).isLt⟩

/-- The bias row, broadcast down a block of hidden rows, read at an entry. -/
theorem bcast128_apply (x1 : Vec Ideal S1x128 .f32) (j : S5000x128.Idx) :
    broadcastTo S5000x128 x1 broadcasts_S1x128_S5000x128 j = x1 (blkBias128 j) :=
  broadcastTo_apply x1 broadcasts_S1x128_S5000x128 j (blkBias128 j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The bias row, broadcast down a block of output rows, read at an entry. -/
theorem bcast256_apply (x3 : Vec Ideal S1x256 .f32) (j : S5000x256.Idx) :
    broadcastTo S5000x256 x3 broadcasts_S1x256_S5000x256 j = x3 (blkBias256 j) :=
  broadcastTo_apply x3 broadcasts_S1x256_S5000x256 j (blkBias256 j) (fun a => match a with
    | ⟨0, _⟩ => by show 0 = if (1 : Nat) = 1 then 0 else (j 0).val; rw [if_pos rfl]
    | ⟨1, _⟩ => by show (j 1).val = if (256 : Nat) = 1 then 0 else (j 1).val; rw [if_neg (by decide)])

/-- The first payload at an entry: the row entry plus the bias entry, clamped below at zero. -/
theorem actPay_apply (x0 : Vec Ideal S5000x128 .f32) (x1 : Vec Ideal S1x128 .f32) (j : S5000x128.Idx) :
    k1_pay1 (F := Ideal) x0 x1 j = max (x0 j + x1 (blkBias128 j)) (Ideal.ofBits .f32 0x00000000#32) := by
  unfold k1_pay1
  simp only [shapeCast_self]
  show max (x0 j + broadcastTo S5000x128 x1 broadcasts_S1x128_S5000x128 j) (Ideal.ofBits .f32 0x00000000#32) = _
  rw [bcast128_apply]

/-- The matrix product of the second payload at an entry: a sum over the 128 hidden entries. -/
theorem decDot_apply (z : Vec Ideal S5000x128 .f32) (x2 : Vec Ideal S128x256 .f32) (j : S5000x256.Idx) :
    FloatOps.matmul (F := Ideal) dot_S5000x128_S128x256_S5000x256_1_0_0_1_n_n none (truncf .bf16 z bitsLt_bf16_f32) (truncf .bf16 x2 bitsLt_bf16_f32) (constant S5000x256 .f32 0x00000000#32) j
      = ∑ k : Fin 128, z (blkHid j k) * x2 (wdCol j k) := by
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx j ((ValueIdx.contrEquiv1 dot_S5000x128_S128x256_S5000x256_1_0_0_1_n_n 128 rfl rfl).symm k) = blkHid j k := funext fun a => Fin.ext (by
    match a with
    | ⟨0, _⟩ => exact lhs_dec_0 _ _
    | ⟨1, _⟩ => exact (lhs_dec_1 _ _).trans hk)
  have er : dot_S5000x128_S128x256_S5000x256_1_0_0_1_n_n.rhsIdx j ((ValueIdx.contrEquiv1 dot_S5000x128_S128x256_S5000x256_1_0_0_1_n_n 128 rfl rfl).symm k) = wdCol j k := funext fun a => Fin.ext (by
    match a with
    | ⟨0, _⟩ => exact (rhs_dec_0 _ _).trans hk
    | ⟨1, _⟩ => exact rhs_dec_1 _ _)
  rw [el, er]
  rfl

/-- The second payload at an entry: the product of the clamped block with the weights, plus the bias entry. -/
theorem decPay_apply (x0 : Vec Ideal S5000x128 .f32) (x1 : Vec Ideal S1x128 .f32) (x2 : Vec Ideal S128x256 .f32) (x3 : Vec Ideal S1x256 .f32) (j : S5000x256.Idx) :
    k1_pay2 (F := Ideal) x0 x1 x2 x3 j
      = (∑ k : Fin 128, k1_pay1 (F := Ideal) x0 x1 (blkHid j k) * x2 (wdCol j k)) + x3 (blkBias256 j) := by
  unfold k1_pay2
  simp only [shapeCast_self, matmul]
  show FloatOps.matmul (F := Ideal) dot_S5000x128_S128x256_S5000x256_1_0_0_1_n_n none (truncf .bf16 (k1_pay1 (F := Ideal) x0 x1) bitsLt_bf16_f32) (truncf .bf16 x2 bitsLt_bf16_f32) (constant S5000x256 .f32 0x00000000#32) j
      + broadcastTo S5000x256 x3 broadcasts_S1x256_S5000x256 j = _
  rw [decDot_apply, bcast256_apply]

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row-blocked windows are at block (t, 0), the others at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- An entry of the aggregated block at point `t` is the array's entry `5000·t` rows down. -/
theorem agg_blk (c : Dev nD) (t : Fin cfg1.N) (y : S5000x128.Idx) (i : S100000x128.Idx)
    (h0 : (i 0).val = 5000 * t.val + (y 0).val) (h1 : (i 1).val = (y 1).val) :
    iblk1 V c 0 t y = V c main_v41 i := by
  obtain ⟨f0, f1, -⟩ := idx_facts1 t
  show V c main_v41 (((cfg1.win 0).blk t).view.emb y) = _
  refine congrArg (V c main_v41) (funext fun a => Fin.ext ?_)
  match a with
  | ⟨0, _⟩ => show win1_0.index t (0 : Fin 2) * 5000 + 1 * (y 0).val = (i 0).val; rw [f0, h0]; omega
  | ⟨1, _⟩ => show win1_0.index t (1 : Fin 2) * 128 + 1 * (y 1).val = (i 1).val; rw [f1, h1]; omega

/-- The first bias window's one block is the whole bias row. -/
theorem bias128_blk (c : Dev nD) (t : Fin cfg1.N) (y : S1x128.Idx) (i : S1x128.Idx)
    (h0 : (i 0).val = (y 0).val) (h1 : (i 1).val = (y 1).val) :
    iblk1 V c 1 t y = V c main_v42 i := by
  obtain ⟨-, -, f2, f3, -⟩ := idx_facts1 t
  show V c main_v42 (((cfg1.win 1).blk t).view.emb y) = _
  refine congrArg (V c main_v42) (funext fun a => Fin.ext ?_)
  match a with
  | ⟨0, _⟩ => show win1_1.index t (0 : Fin 2) * 1 + 1 * (y 0).val = (i 0).val; rw [f2, h0]; omega
  | ⟨1, _⟩ => show win1_1.index t (1 : Fin 2) * 128 + 1 * (y 1).val = (i 1).val; rw [f3, h1]; omega

/-- The weight window's one block is the whole weight array. -/
theorem wdec_blk (c : Dev nD) (t : Fin cfg1.N) (y : S128x256.Idx) (i : S128x256.Idx)
    (h0 : (i 0).val = (y 0).val) (h1 : (i 1).val = (y 1).val) :
    iblk1 V c 2 t y = V c main_v43 i := by
  obtain ⟨-, -, -, -, f4, f5, -⟩ := idx_facts1 t
  show V c main_v43 (((cfg1.win 2).blk t).view.emb y) = _
  refine congrArg (V c main_v43) (funext fun a => Fin.ext ?_)
  match a with
  | ⟨0, _⟩ => show win1_2.index t (0 : Fin 2) * 128 + 1 * (y 0).val = (i 0).val; rw [f4, h0]; omega
  | ⟨1, _⟩ => show win1_2.index t (1 : Fin 2) * 256 + 1 * (y 1).val = (i 1).val; rw [f5, h1]; omega

/-- The second bias window's one block is the whole bias row. -/
theorem bias256_blk (c : Dev nD) (t : Fin cfg1.N) (y : S1x256.Idx) (i : S1x256.Idx)
    (h0 : (i 0).val = (y 0).val) (h1 : (i 1).val = (y 1).val) :
    iblk1 V c 3 t y = V c main_v44 i := by
  obtain ⟨-, -, -, -, -, -, f6, f7, -⟩ := idx_facts1 t
  show V c main_v44 (((cfg1.win 3).blk t).view.emb y) = _
  refine congrArg (V c main_v44) (funext fun a => Fin.ext ?_)
  match a with
  | ⟨0, _⟩ => show win1_3.index t (0 : Fin 2) * 1 + 1 * (y 0).val = (i 0).val; rw [f6, h0]; omega
  | ⟨1, _⟩ => show win1_3.index t (1 : Fin 2) * 256 + 1 * (y 1).val = (i 1).val; rw [f7, h1]; omega

/-- The clamped block at an entry is `Spec.activate` of the two arrays at the array's entry `5000·t` rows down. -/
theorem act_blk (c : Dev nD) (t : Fin cfg1.N) (y : S5000x128.Idx) (i : S100000x128.Idx)
    (h0 : (i 0).val = 5000 * t.val + (y 0).val) (h1 : (i 1).val = (y 1).val) :
    k1_pay1 (F := Ideal) (iblk1 V c 0 t) (iblk1 V c 1 t) y = activate (V c main_v41) (V c main_v42) i := by
  refine (actPay_apply (iblk1 V c 0 t) (iblk1 V c 1 t) y).trans ?_
  unfold activate
  rw [agg_blk V c t y i h0 h1, bias128_blk V c t (blkBias128 y) (bias128At i) rfl h1]

/-- WHAT POINT `t` WRITES BACK to the first output is block `t` of `Spec.activate` of the arrays the region read. -/
theorem act_flushed (c : Dev nD) (t : Fin cfg1.N) :
    (dat1 V c).flushed 4 t = ((cfg1.win 4).blk t).view.read (Elt Ideal) (activate (V c main_v41) (V c main_v42)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  funext j
  obtain ⟨-, -, -, -, -, -, -, -, f8, f9, -⟩ := idx_facts1 t
  show k1_pay1 (F := Ideal) (iblk1 V c 0 t) (iblk1 V c 1 t) j
    = activate (V c main_v41) (V c main_v42) (((cfg1.win 4).blk t).view.emb j)
  refine act_blk V c t j _ ?_ ?_
  · show win1_4.index t (0 : Fin 2) * 5000 + 1 * (j 0).val = 5000 * t.val + (j 0).val; rw [f8]; omega
  · show win1_4.index t (1 : Fin 2) * 128 + 1 * (j 1).val = (j 1).val; rw [f9]; omega

/-- WHAT POINT `t` WRITES BACK to the second output is block `t` of `Spec.decode` of the clamped array. -/
theorem dec_flushed (c : Dev nD) (t : Fin cfg1.N) :
    (dat1 V c).flushed 5 t = ((cfg1.win 5).blk t).view.read (Elt Ideal)
      (decode (activate (V c main_v41) (V c main_v42)) (V c main_v43) (V c main_v44)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz, View.ld_unit_zero (S := S128x256) hz, View.ld_unit_zero (S := S1x256) hz]
  funext j
  obtain ⟨-, -, -, -, -, -, -, -, -, -, f10, f11⟩ := idx_facts1 t
  show k1_pay2 (F := Ideal) (iblk1 V c 0 t) (iblk1 V c 1 t) (iblk1 V c 2 t) (iblk1 V c 3 t) j
    = decode (activate (V c main_v41) (V c main_v42)) (V c main_v43) (V c main_v44) (((cfg1.win 5).blk t).view.emb j)
  have r0 : ((((cfg1.win 5).blk t).view.emb j) 0).val = 5000 * t.val + (j 0).val := by
    show win1_5.index t (0 : Fin 2) * 5000 + 1 * (j 0).val = _; rw [f10]; omega
  have r1 : ((((cfg1.win 5).blk t).view.emb j) 1).val = (j 1).val := by
    show win1_5.index t (1 : Fin 2) * 256 + 1 * (j 1).val = _; rw [f11]; omega
  refine (decPay_apply (iblk1 V c 0 t) (iblk1 V c 1 t) (iblk1 V c 2 t) (iblk1 V c 3 t) j).trans ?_
  unfold decode
  rw [bias256_blk V c t (blkBias256 j) (bias256At (((cfg1.win 5).blk t).view.emb j)) rfl r1]
  refine congrArg (· + _) (Finset.sum_congr rfl fun k _ => ?_)
  rw [act_blk V c t (blkHid j k) (hidAt (((cfg1.win 5).blk t).view.emb j) k) r0 rfl,
    wdec_blk V c t (wdCol j k) (decWAt (((cfg1.win 5).blk t).view.emb j) k) rfl r1]

theorem act_mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v45_0).slice (win1_4.rect t)).set ↔ _
  rw [View.set_slice_whole, Rect.mem_set_unit]
  exact Iff.rfl

theorem dec_mem_blk (t : Fin cfg1.N) (i : S100000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v45_1).slice (win1_5.rect t)).set ↔ _
  rw [View.set_slice_whole, Rect.mem_set_unit]
  exact Iff.rfl

/-- THE FIRST OUTPUT after the region: row `r` is in block `r / 5000`, so the blocks cover the array. -/
theorem act_final (c : Dev nD) : (dat1 V c).arrAt 4 cfg1.N = activate (V c main_v41) (V c main_v42) :=
  (dat1 V c).arrAt_eq_of_cover 4 (activate (V c main_v41) (V c main_v42)) (fun t _ => act_flushed V c t) fun i => by
    have hi0 : (i 0).val < 100000 := (i 0).isLt
    have hi1 : (i 1).val < 128 := (i 1).isLt
    have hN : cfg1.N = 20 := N_1
    have ht : (i 0).val / 5000 < cfg1.N := by rw [hN]; omega
    obtain ⟨-, -, -, -, -, -, -, -, f8, f9, -⟩ := idx_facts1 ⟨(i 0).val / 5000, ht⟩
    refine ⟨⟨(i 0).val / 5000, ht⟩, flush1_4 _, ?_⟩
    rw [act_mem_blk]
    intro a
    match a with
    | ⟨0, _⟩ =>
      show win1_4.index ⟨(i 0).val / 5000, ht⟩ (0 : Fin 2) * 5000 ≤ (i 0).val ∧ (i 0).val < win1_4.index ⟨(i 0).val / 5000, ht⟩ (0 : Fin 2) * 5000 + 5000
      rw [f8]; show (i 0).val / 5000 * 5000 ≤ (i 0).val ∧ (i 0).val < (i 0).val / 5000 * 5000 + 5000; omega
    | ⟨1, _⟩ =>
      show win1_4.index ⟨(i 0).val / 5000, ht⟩ (1 : Fin 2) * 128 ≤ (i 1).val ∧ (i 1).val < win1_4.index ⟨(i 0).val / 5000, ht⟩ (1 : Fin 2) * 128 + 128
      rw [f9]; omega

/-- THE SECOND OUTPUT after the region, by the same cover. -/
theorem dec_final (c : Dev nD) : (dat1 V c).arrAt 5 cfg1.N
    = decode (activate (V c main_v41) (V c main_v42)) (V c main_v43) (V c main_v44) :=
  (dat1 V c).arrAt_eq_of_cover 5 (decode (activate (V c main_v41) (V c main_v42)) (V c main_v43) (V c main_v44)) (fun t _ => dec_flushed V c t) fun i => by
    have hi0 : (i 0).val < 100000 := (i 0).isLt
    have hi1 : (i 1).val < 256 := (i 1).isLt
    have hN : cfg1.N = 20 := N_1
    have ht : (i 0).val / 5000 < cfg1.N := by rw [hN]; omega
    obtain ⟨-, -, -, -, -, -, -, -, -, -, f10, f11⟩ := idx_facts1 ⟨(i 0).val / 5000, ht⟩
    refine ⟨⟨(i 0).val / 5000, ht⟩, flush1_5 _, ?_⟩
    rw [dec_mem_blk]
    intro a
    match a with
    | ⟨0, _⟩ =>
      show win1_5.index ⟨(i 0).val / 5000, ht⟩ (0 : Fin 2) * 5000 ≤ (i 0).val ∧ (i 0).val < win1_5.index ⟨(i 0).val / 5000, ht⟩ (0 : Fin 2) * 5000 + 5000
      rw [f10]; show (i 0).val / 5000 * 5000 ≤ (i 0).val ∧ (i 0).val < (i 0).val / 5000 * 5000 + 5000; omega
    | ⟨1, _⟩ =>
      show win1_5.index ⟨(i 0).val / 5000, ht⟩ (1 : Fin 2) * 256 ≤ (i 1).val ∧ (i 1).val < win1_5.index ⟨(i 0).val / 5000, ht⟩ (1 : Fin 2) * 256 + 256
      rw [f11]; omega

end Cert.KernelIdeal.Dec

end
-- ==== Proof.Neighbourhood.lean ====
/-
  The step both programs share between the encoder product and the bias: the symmetric-normalised neighbourhood sum of a
  graph convolution, as ONE function of the hidden rows `h` and the edge array `e` (row 0 the sources, row 1 the targets).

  Every node gets a self-loop, so the edge list is the 1600000 given edges followed by the 100000 pairs (n, n).
  With deg[n] the number of listed edges whose target is n (a scatter-add of ones) and d = deg^(-1/2), edge k carries
  the weight d[src k] · d[tgt k], and the result's row n is the sum over the edges k with target n of
  weight k · h[src k, ·] (a gather, a product and a scatter-add into zeros). An index below zero is wrapped by
  adding 100000 before a gather, as the programs do.

  Both programs print these operations with the same text, so each program's value is this function of the program's own
  hidden rows; nothing in it is ever opened.
-/
import proofs.«176377_j12893491822678_1_alg».proof.Proof.Gen.ReferenceIdeal

noncomputable section

open Idealize.ShloMosaic

namespace Cert.ReferenceIdeal.Nbr

open Cert.ReferenceIdeal Cert.ReferenceIdeal.Gen

variable {F : FTy → Type} [FloatOps F]

/-- Row `r` of the edge array with the self-loops 0 … 99999 appended: `r = 0` the sources. -/
def sources (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- and `r = 1` the targets. -/
def targets (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index below zero counts from the end: 100000 is added to it. -/
def wrapped (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- deg^(-1/2): the number of listed edges into each node (ones scatter-added into zeros at the targets), then the
    reciprocal square root. -/
def invSqrtDegree (e : (⟨S2x1600000, .i32⟩ : BufTy).Contents (Elt F)) : (⟨S100000, .f32⟩ : BufTy).Contents (Elt F) :=
  Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (targets e)) (broadcastInDim S1700000 ![] bcast_S_S1700000 (constant S_ .f32 0x3F800000#32)))

/-- The weight of each listed edge: deg^(-1/2) at its source times deg^(-1/2) at its target. -/
def edgeWeight (e : (⟨S2x1600000, .i32⟩ : BufTy).Contents (Elt F)) : (⟨S1700000, .f32⟩ : BufTy).Contents (Elt F) :=
  mulf (Host.gather gather_S100000_S1700000x1_S1700000_n_0_n_n_0_1_1 (invSqrtDegree e) (broadcastInDim S1700000x1 ![0] bcast_S1700000_S1700000x1_0 (wrapped (sources e))))
    (Host.gather gather_S100000_S1700000x1_S1700000_n_0_n_n_0_1_1 (invSqrtDegree e) (broadcastInDim S1700000x1 ![0] bcast_S1700000_S1700000x1_0 (wrapped (targets e))))

/-- Row n of the result: the sum, over the listed edges into n, of the edge's weight times the hidden row of its source. -/
def neighbourSum (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (targets e))
    (mulf (Host.gather gather_S100000x128_S1700000x1_S1700000x128_1_0_n_n_0_1_1128 h (broadcastInDim S1700000x1 ![0] bcast_S1700000_S1700000x1_0 (wrapped (sources e))))
      (broadcastInDim S1700000x128 ![0, 1] bcast_S1700000x1_S1700000x128_0_1 (broadcastInDim S1700000x1 ![0] bcast_S1700000_S1700000x1_0 (edgeWeight e))))

end Cert.ReferenceIdeal.Nbr

end
-- ==== Proof.KernelChain.lean ====
/-
  The idealized kernel's two results as the specification's functions of its arguments, read back through @main.
  The last region leaves `Spec.activate` and `Spec.decode` of the arrays it was entered with; those are, by the host
  operations between the regions, the shared neighbourhood sum of the first region's output, the two biases reshaped to
  rows and the decoder weights transposed; and the first region's output is `Spec.encode` of the features and the encoder
  weights transposed. No host operation and no region writes an argument, so each is read at its launch contents.
-/
import proofs.«176377_j12893491822678_1_alg».proof.Proof.Gen.KernelIdeal.Frame
import proofs.«176377_j12893491822678_1_alg».proof.Proof.EncValue
import proofs.«176377_j12893491822678_1_alg».proof.Proof.DecValue
import proofs.«176377_j12893491822678_1_alg».proof.Proof.Neighbourhood
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.Spec
open Idealize.ShloMosaic Idealize.ShloMosaic.TcCoe Idealize.SL.Sem Idealize.ShloMosaic.StableHlo
open Cert.ReferenceIdeal.Nbr (neighbourSum)

/-- A vector of 128 reshaped to one row holds entry j at (0, j): the two have the same row-major position. -/
theorem reshape128 {α : Type} (b : S128.Idx → α) : shapeCast S1x128 b shapeCasts_S128_S1x128 = asRow128 b := by
  funext i
  unfold asRow128
  refine shapeCast_apply b shapeCasts_S128_S1x128 i _ ?_
  rw [Shape.rowMajor_val_one, Shape.rowMajor_val_two]
  have h0 : (i 0).val < 1 := (i 0).isLt
  show (i 1).val = (i 0).val * 128 + (i 1).val
  omega

/-- A vector of 256 reshaped to one row, likewise. -/
theorem reshape256 {α : Type} (b : S256.Idx → α) : shapeCast S1x256 b shapeCasts_S256_S1x256 = asRow256 b := by
  funext i
  unfold asRow256
  refine shapeCast_apply b shapeCasts_S256_S1x256 i _ ?_
  rw [Shape.rowMajor_val_one, Shape.rowMajor_val_two]
  have h0 : (i 0).val < 1 := (i 0).isLt
  show (i 1).val = (i 0).val * 256 + (i 1).val
  omega

variable (m : (ℓ : Loc nD τ sig) → Buf (Elt Ideal) ℓ) (ρ : Dev nD → PrngReg)

/-! ## The first region's entry and exit -/

/-- The first region is entered with the features as launched … -/
theorem entry0_feat (c : Dev nD) : V1 m ρ c main_arg0 = m ((c : Thread nD τ).loc main_arg0) := by
  show StableHlo.after hostOps0 (W0 m ρ c) (Proc.devRef .tc main_arg0) = _
  after_results

/-- … and the encoder weights transposed. -/
theorem entry0_w (c : Dev nD) :
    V1 m ρ c main_v0 = transpose S256x128 [1, 0] (m ((c : Thread nD τ).loc main_arg2)) transposes_S128x256_S256x128_1_0 := by
  show StableHlo.after hostOps0 (W0 m ρ c) (Proc.devRef .tc main_v0) = _
  after_results

/-- What the first region leaves in its output array: the features times the transposed weights. -/
theorem hidden0 (c : Dev nD) : W2 m ρ c (Proc.devRef .tc main_v1)
    = encode (m ((c : Thread nD τ).loc main_arg0)) (transpose S256x128 [1, 0] (m ((c : Thread nD τ).loc main_arg2)) transposes_S128x256_S256x128_1_0) := by
  have h := (W2_arr m ρ c 2).trans (Enc.enc_final (V1 m ρ) c)
  rw [entry0_feat, entry0_w] at h
  exact h

/-- The arguments the later host operations read are, after the first region, still as launched. -/
theorem kept_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem kept_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem kept_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem kept_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

/-! ## The second region's entry: the host operations between the regions, read -/

/-- The aggregated rows the second region is entered with: the shared neighbourhood sum of the first region's output. -/
theorem entry1_agg (c : Dev nD) : V3 m ρ c main_v41
    = neighbourSum (W2 m ρ c (Proc.devRef .tc main_v1)) (W2 m ρ c (Proc.devRef .tc main_arg1)) := by
  show StableHlo.after hostOps1 (W2 m ρ c) (Proc.devRef .tc main_v41) = _
  after_results_simp
  rfl

/-- The first bias, reshaped to a row. -/
theorem entry1_bias128 (c : Dev nD) : V3 m ρ c main_v42
    = shapeCast S1x128 (W2 m ρ c (Proc.devRef .tc main_arg3)) shapeCasts_S128_S1x128 := by
  show StableHlo.after hostOps1 (W2 m ρ c) (Proc.devRef .tc main_v42) = _
  after_results_simp
  rfl

/-- The decoder weights, transposed. -/
theorem entry1_w (c : Dev nD) : V3 m ρ c main_v43
    = transpose S128x256 [1, 0] (W2 m ρ c (Proc.devRef .tc main_arg4)) transposes_S256x128_S128x256_1_0 := by
  show StableHlo.after hostOps1 (W2 m ρ c) (Proc.devRef .tc main_v43) = _
  after_results_simp

/-- The second bias, reshaped to a row. -/
theorem entry1_bias256 (c : Dev nD) : V3 m ρ c main_v44
    = shapeCast S1x256 (W2 m ρ c (Proc.devRef .tc main_arg5)) shapeCasts_S256_S1x256 := by
  show StableHlo.after hostOps1 (W2 m ρ c) (Proc.devRef .tc main_v44) = _
  after_results_simp
  rfl

/-! ## The two results -/

/-- The hidden rows the idealized kernel returns. -/
abbrev hiddenOf (c : Dev nD) : Hid.Idx → EReal :=
  activate (neighbourSum (encode (m ((c : Thread nD τ).loc main_arg0)) (transpose S256x128 [1, 0] (m ((c : Thread nD τ).loc main_arg2)) transposes_S128x256_S256x128_1_0)) (m ((c : Thread nD τ).loc main_arg1)))
    (asRow128 (m ((c : Thread nD τ).loc main_arg3)))

/-- The first result array after the run. -/
theorem out0 (c : Dev nD) : W4 m ρ c (Proc.devRef .tc main_v45_0) = hiddenOf m c := by
  have h := (W4_arr m ρ c 4).trans (Dec.act_final (V3 m ρ) c)
  rw [entry1_agg, entry1_bias128, hidden0, kept_arg1, kept_arg3, reshape128] at h
  exact h

/-- The second result array after the run. -/
theorem out1 (c : Dev nD) : W4 m ρ c (Proc.devRef .tc main_v45_1)
    = decode (hiddenOf m c) (transpose S128x256 [1, 0] (m ((c : Thread nD τ).loc main_arg4)) transposes_S256x128_S128x256_1_0)
        (asRow256 (m ((c : Thread nD τ).loc main_arg5))) := by
  have h := (W4_arr m ρ c 5).trans (Dec.dec_final (V3 m ρ) c)
  rw [entry1_agg, entry1_bias128, entry1_w, entry1_bias256, hidden0, kept_arg1, kept_arg3, kept_arg4, kept_arg5, reshape128, reshape256] at h
  exact h

end Cert.KernelIdeal.Chain

end
-- ==== Proof.RefRead.lean ====
/-
  The reference's two results as the specification's functions of its arguments.
  Its first product is `Spec.encode` (a sum over the 256 features), its scatter stage the shared neighbourhood sum of that
  product, its clamp `Spec.activate` with the bias laid out as a row, and its last stage `Spec.decode`: a sum over the 128
  hidden entries plus the second bias laid out as a row. The reference's run ends with its results at these terms.
-/
import proofs.«176377_j12893491822678_1_alg».proof.Proof.Gen.ReferenceIdeal.Run
import proofs.«176377_j12893491822678_1_alg».proof.Proof.Gen.ReferenceIdeal.Read
import proofs.«176377_j12893491822678_1_alg».proof.Proof.Spec
import proofs.«176377_j12893491822678_1_alg».proof.Proof.Neighbourhood

noncomputable section

namespace Cert.ReferenceIdeal.RefValue

open Cert.ReferenceIdeal Cert.ReferenceIdeal.Gen Cert.ReferenceIdeal.Read Cert.ReferenceIdeal.Nbr Cert.Spec
open Idealize.ShloMosaic Idealize.ShloMosaic.TcCoe Idealize.SL.Sem

/-- The reference's product of the features with the transposed encoder weights, entry by entry the sum over the features. -/
theorem product_eq (x0 : (⟨S100000x256, .f32⟩ : BufTy).Contents (Elt Ideal)) (x2 : (⟨S128x256, .f32⟩ : BufTy).Contents (Elt Ideal)) :
    val_main_v1 (F := Ideal) x0 x2 = encode x0 (val_main_v0 (F := Ideal) x2) := by
  funext i
  rw [val_main_v1_apply]
  unfold encode
  refine Finset.sum_congr rfl fun k _ => ?_
  have el : lidx_main_v1 i k = featAt i k := funext fun a => by match a with | ⟨0, _⟩ => rfl | ⟨1, _⟩ => rfl
  have er : ridx_main_v1 i k = encWAt i k := funext fun a => by match a with | ⟨0, _⟩ => rfl | ⟨1, _⟩ => rfl
  rw [el, er]

/-- The reference's scatter stage is the shared neighbourhood sum of its product: the same operations, stage by stage. -/
theorem nbr_eq {F : FTy → Type} [FloatOps F] (x0 : (⟨S100000x256, .f32⟩ : BufTy).Contents (Elt F)) (x1 : (⟨S2x1600000, .i32⟩ : BufTy).Contents (Elt F)) (x2 : (⟨S128x256, .f32⟩ : BufTy).Contents (Elt F)) :
    val_main_v41 (F := F) x0 x1 x2 = neighbourSum (val_main_v1 (F := F) x0 x2) x1 := rfl

/-- The reference's bias rows are the bias vectors laid out as rows. -/
theorem row128_eq {F : FTy → Type} [FloatOps F] (x3 : (⟨S128, .f32⟩ : BufTy).Contents (Elt F)) : val_main_v42 (F := F) x3 = asRow128 x3 := by
  funext i
  rw [val_main_v42_apply]
  unfold asRow128
  exact congrArg x3 (funext fun a => by match a with | ⟨0, _⟩ => rfl)
theorem row256_eq {F : FTy → Type} [FloatOps F] (x5 : (⟨S256, .f32⟩ : BufTy).Contents (Elt F)) : val_main_v48 (F := F) x5 = asRow256 x5 := by
  funext i
  rw [val_main_v48_apply]
  unfold asRow256
  exact congrArg x5 (funext fun a => by match a with | ⟨0, _⟩ => rfl)

/-- The reference's first result: the neighbourhood sum of the product, plus the bias row, clamped below at zero. -/
theorem hidden_eq (x0 : (⟨S100000x256, .f32⟩ : BufTy).Contents (Elt Ideal)) (x1 : (⟨S2x1600000, .i32⟩ : BufTy).Contents (Elt Ideal)) (x2 : (⟨S128x256, .f32⟩ : BufTy).Contents (Elt Ideal)) (x3 : (⟨S128, .f32⟩ : BufTy).Contents (Elt Ideal)) :
    val_main_v45 (F := Ideal) x0 x1 x2 x3
      = activate (neighbourSum (encode x0 (val_main_v0 (F := Ideal) x2)) x1) (asRow128 x3) := by
  funext i
  rw [val_main_v45_apply, val_main_v44_apply, val_main_v43_apply, val_main_call0_v0_apply, val_main_call0_cst_apply, nbr_eq, product_eq, row128_eq]
  unfold activate
  have eb : idx_main_v43 i = bias128At i := funext fun a => by match a with | ⟨0, _⟩ => rfl | ⟨1, _⟩ => rfl
  rw [eb]
  rfl

/-- The reference's second result: the first result times the transposed decoder weights, plus the second bias row. -/
theorem recon_eq (x0 : (⟨S100000x256, .f32⟩ : BufTy).Contents (Elt Ideal)) (x1 : (⟨S2x1600000, .i32⟩ : BufTy).Contents (Elt Ideal)) (x2 : (⟨S128x256, .f32⟩ : BufTy).Contents (Elt Ideal)) (x3 : (⟨S128, .f32⟩ : BufTy).Contents (Elt Ideal)) (x4 : (⟨S256x128, .f32⟩ : BufTy).Contents (Elt Ideal)) (x5 : (⟨S256, .f32⟩ : BufTy).Contents (Elt Ideal)) :
    val_main_v50 (F := Ideal) x0 x1 x2 x3 x4 x5
      = decode (val_main_v45 (F := Ideal) x0 x1 x2 x3) (val_main_v46 (F := Ideal) x4) (asRow256 x5) := by
  funext i
  rw [val_main_v50_apply, val_main_v47_apply, val_main_v49_apply, row256_eq]
  generalize val_main_v45 (F := Ideal) x0 x1 x2 x3 = z
  generalize val_main_v46 (F := Ideal) x4 = w
  unfold decode
  have eb : idx_main_v49 i = bias256At i := funext fun a => by match a with | ⟨0, _⟩ => rfl | ⟨1, _⟩ => rfl
  rw [eb]
  show (∑ k : Fin 128, _) + _ = (∑ k : Fin 128, _) + _
  refine congrArg (· + _) (Finset.sum_congr rfl fun k _ => ?_)
  have el : lidx_main_v47 i k = hidAt i k := funext fun a => by match a with | ⟨0, _⟩ => rfl | ⟨1, _⟩ => rfl
  have er : ridx_main_v47 i k = decWAt i k := funext fun a => by match a with | ⟨0, _⟩ => rfl | ⟨1, _⟩ => rfl
  rw [el, er]

end Cert.ReferenceIdeal.RefValue

end
-- ==== Proof.lean ====
/-
  A two-layer graph autoencoder: a graph convolution (features times encoder weights, the symmetric-normalised
  neighbourhood sum over the edges with a self-loop at every node, a bias, a clamp at zero) followed by a linear decoder
  (hidden rows times decoder weights plus a bias). The kernel computes the two matrix products and the bias-and-clamp
  in two blocked regions of twenty blocks of 5000 nodes, and the neighbourhood sum between them on the host; the
  reference computes everything on the host.

  Over the extended reals the two agree entry by entry, with no condition on the inputs:
  * a blocked product into a zero accumulator and the host's contraction are the same finite sum over the contracted
    axis, and the change of float format on the way into the kernel's products is the identity;
  * the neighbourhood sum is, in both programs, the same operations applied to the encoder product
    (`Nbr.neighbourSum`), so it is carried as a function of that product and never opened;
  * a bias reshaped to a row and a bias broadcast into a row are the same row.
  So both programs return `Spec.activate (neighbourSum (Spec.encode x Wᵀ) edges) b` and `Spec.decode` of it.

  The kernel programs' frames are the generated ones; the reference's frame is its run with the results dropped; the
  idealization rewrote nothing, so there is nothing to preserve.
-/
import proofs.«176377_j12893491822678_1_alg».proof.Defs
import proofs.«176377_j12893491822678_1_alg».proof.Proof.Gen.Kernel
import proofs.«176377_j12893491822678_1_alg».proof.Proof.Gen.Kernel.Skeleton
import proofs.«176377_j12893491822678_1_alg».proof.Proof.Gen.Kernel.Launch
import proofs.«176377_j12893491822678_1_alg».proof.Proof.Gen.Kernel.Points
import proofs.«176377_j12893491822678_1_alg».proof.Proof.Gen.Kernel.Frame
import proofs.«176377_j12893491822678_1_alg».proof.Proof.Gen.KernelIdeal
import proofs.«176377_j12893491822678_1_alg».proof.Proof.Gen.KernelIdeal.Skeleton
import proofs.«176377_j12893491822678_1_alg».proof.Proof.Gen.KernelIdeal.Launch
import proofs.«176377_j12893491822678_1_alg».proof.Proof.Gen.KernelIdeal.Points
import proofs.«176377_j12893491822678_1_alg».proof.Proof.Gen.KernelIdeal.Frame
import proofs.«176377_j12893491822678_1_alg».proof.Proof.Gen.ReferenceIdeal
import proofs.«176377_j12893491822678_1_alg».proof.Proof.Gen.ReferenceIdeal.Run
import proofs.«176377_j12893491822678_1_alg».proof.Proof.Gen.ReferenceIdeal.Read
import proofs.«176377_j12893491822678_1_alg».proof.Proof.Gen.Pre_finite_inputs
import proofs.«176377_j12893491822678_1_alg».proof.Proof.RunAt
import proofs.«176377_j12893491822678_1_alg».proof.Proof.KernelChain
import proofs.«176377_j12893491822678_1_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the hidden rows at `activate (neighbourSum (encode x Wᵀ) edges) b` and the reconstruction at
    `decode` of them, of arguments that agree. -/
theorem algebraic : Cert.algebraic_KernelIdeal_ReferenceIdeal := by
  intro m ρ m' ρ' _ hagree
  refine ⟨fun c => Cert.KernelIdeal.Chain.hiddenOf m c,
    fun c => Cert.Spec.decode (Cert.KernelIdeal.Chain.hiddenOf m c)
      (transpose Cert.KernelIdeal.S128x256 [1, 0] (m ((c.tc : Thread Cert.KernelIdeal.nD Cert.KernelIdeal.τ).loc Cert.KernelIdeal.main_arg4)) Cert.KernelIdeal.Gen.transposes_S256x128_S128x256_1_0)
      (Cert.Spec.asRow256 (m ((c.tc : Thread Cert.KernelIdeal.nD Cert.KernelIdeal.τ).loc Cert.KernelIdeal.main_arg5))), ?_, ?_⟩
  · exact (θ_run Cert.KernelIdeal.defs _ _).mono
      (fun r h c => ⟨(h c).1.trans (Cert.KernelIdeal.Chain.out0 m ρ c), (h c).2.1.trans (Cert.KernelIdeal.Chain.out1 m ρ c), (h c).2.2⟩)
      (Cert.KernelIdeal.RunAt.run_at m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v45_eq, Cert.ReferenceIdeal.RefValue.hidden_eq,
        (hagree c).1, (hagree c).2.1, (hagree c).2.2.1, (hagree c).2.2.2.1]
      rfl
    · rw [Cert.ReferenceIdeal.Read.val_main_v50_eq, Cert.ReferenceIdeal.RefValue.recon_eq, Cert.ReferenceIdeal.RefValue.hidden_eq,
        (hagree c).1, (hagree c).2.1, (hagree c).2.2.1, (hagree c).2.2.2.1, (hagree c).2.2.2.2.1, (hagree c).2.2.2.2.2]
      rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
